-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v15 : IVec S4096x4096 1) (main_c_5 : IVec S_ 32) : IVec S_ 1 :=
  let main_v16 : IVec S4096x4096 32 := broadcastInDim S4096x4096 ![] bcast_S_S4096x4096 main_c_5
  let main_v17 : IVec S4096x4096 1 := cmpi .slt main_arg1 main_v16
  let main_v18 : IVec S4096x4096 1 := andi main_v15 main_v17
  let main_c_6 : IVec S_ 1 := constantI S_ 1 1#1
  let main_v19 : IVec S_ 1 := (fun x v => Host.reduce IntOp.andi x v reducesTo_S4096x4096_S_d0_1 h_S_) main_v18 main_c_6
  let main_v20 : IVec S_ 1 := andi main_v13 main_v19
  main_v20

def fn {F : FTy → Type} [FloatOps F] (main_arg0 : FVec F S4x2048x4096 .f32) (main_arg1 : IVec S4096x4096 32) (main_arg2 : FVec F S262144 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x4096 32 := broadcastInDim S4096x4096 ![] bcast_S_S4096x4096 main_c_4
  let main_v15 : IVec S4096x4096 1 := cmpi .sge main_arg1 main_v14
  let main_c_5 : IVec S_ 32 := constantI S_ 32 16#32
  fn_part1 (F := F) main_arg1 main_v13 main_v15 main_c_5
-- ==== Kernel.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S8192x4096 : Shape := ⟨2, ![8192, 4096]⟩
abbrev S4096x64 : Shape := ⟨2, ![4096, 64]⟩
abbrev S512x4096 : Shape := ⟨2, ![512, 4096]⟩
abbrev S256x4096 : Shape := ⟨2, ![256, 4096]⟩
abbrev S256x64 : Shape := ⟨2, ![256, 64]⟩
abbrev S256 : Shape := ⟨1, ![256]⟩
abbrev S512x256 : Shape := ⟨2, ![512, 256]⟩
abbrev S256x64x1 : Shape := ⟨3, ![256, 64, 1]⟩
abbrev S256x64x64 : Shape := ⟨3, ![256, 64, 64]⟩
abbrev S1x256 : Shape := ⟨2, ![1, 256]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .f32⟩
  | .hbm, ⟨3, _⟩ => ⟨S4096, .f32⟩
  | .hbm, ⟨4, _⟩ => ⟨S8192x4096, .f32⟩
  | .hbm, ⟨5, _⟩ => ⟨S4096x64, .f32⟩
  | .hbm, ⟨6, _⟩ => ⟨S8192x4096, .f32⟩
  | .hbm, ⟨7, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x64, .f32⟩
  | .local _ .vmem, ⟨5, _⟩ => ⟨S256x64, .f32⟩
  | .local _ .vmem, ⟨6, _⟩ => ⟨S256, .f32⟩
  | .local _ .vmem, ⟨7, _⟩ => ⟨S256, .f32⟩
  | .local _ .vmem, ⟨8, _⟩ => ⟨S512x256, .f32⟩
  | .local _ .vmem, ⟨9, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  shapeCasts_S262144_S4096x64 : S262144.ShapeCasts S4096x64
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256_S256_0 : ∀ a, (![0] : Fin 1 → Nat) a + S256.size a ≤ S256.size a
  h_S256 : 0 < S256.numel
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  bitsLt_bf16_f32 : FTy.bits .bf16 < FTy.bits .f32
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S4096.size a
  hwx0_3 : ∀ i : grid0.Coords, EltTy.bits .f32 = 32 ∨ (Rect.block (s := S4096) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x4096.size a
  hwx0_4 : ∀ i : grid0.Coords, EltTy.bits .f32 = 32 ∨ (Rect.block (s := S8192x4096) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S262144 : Shape := ⟨1, ![262144]⟩
abbrev S4096 : Shape := ⟨1, ![4096]⟩
abbrev S16 : Shape := ⟨1, ![16]⟩
abbrev S262144x64 : Shape := ⟨2, ![262144, 64]⟩
abbrev S_ : Shape := ⟨0, ![]⟩
abbrev S262144x64x1 : Shape := ⟨3, ![262144, 64, 1]⟩
abbrev S262144x1 : Shape := ⟨2, ![262144, 1]⟩
abbrev S1x1x4096 : Shape := ⟨3, ![1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .f32⟩
  | .hbm, ⟨3, _⟩ => ⟨S4096, .f32⟩
  | .hbm, ⟨4, _⟩ => ⟨S16, .f32⟩
  | .hbm, ⟨5, _⟩ => ⟨S262144x64, .i32⟩
  | .hbm, ⟨6, _⟩ => ⟨S_, .i32⟩
  | .hbm, ⟨7, _⟩ => ⟨S262144x64, .i32⟩
  | .hbm, ⟨8, _⟩ => ⟨S262144x64, .i1⟩
  | .hbm, ⟨9, _⟩ => ⟨S_, .i32⟩
  | .hbm, ⟨10, _⟩ => ⟨S262144x64, .i32⟩
  | .hbm, ⟨11, _⟩ => ⟨S262144x64, .i32⟩
  | .hbm, ⟨12, _⟩ => ⟨S262144x64, .i32⟩
  | .hbm, ⟨13, _⟩ => ⟨S262144x64x1, .i32⟩
  | .hbm, ⟨14, _⟩ => ⟨S262144x64, .f32⟩
  | .hbm, ⟨15, _⟩ => ⟨S262144x1, .f32⟩
  | .hbm, ⟨16, _⟩ => ⟨S262144x64, .f32⟩
  | .hbm, ⟨17, _⟩ => ⟨S262144x64, .f32⟩
  | .hbm, ⟨18, _⟩ => ⟨S4096x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S4096x4096_S262144x64 : S4096x4096.ShapeCasts S262144x64
  bcast_S_S262144x64 : S_.BroadcastsInDim S262144x64 (![] : Fin 0 → Fin S262144x64.rank)
  bcast_S262144x64_S262144x64x1_0_1 : S262144x64.BroadcastsInDim S262144x64x1 (![0, 1] : Fin 2 → Fin S262144x64x1.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S262144x64x1_S262144x64_n_0_n_n_0_2_1_wf : GatherDims.WF S16 S262144x64x1 S262144x64 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S16_S262144x64x1_S262144x64_n_0_n_n_0_2_1 : GatherDims S16 S262144x64x1 S262144x64 where
  offsetDims := []
  collapsedSliceDims := [0]
  operandBatchingDims := []
  startIndicesBatchingDims := []
  startIndexMap := [0]
  indexVectorDim := 2
  sliceSizes := ![1]
  wf := gather_S16_S262144x64x1_S262144x64_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of a four-bit-coded linear layer, stated once for both programs.

  A weight matrix of 4096 × 4096 entries is stored as CODES: entry (o, k) is a number 0 … 15 naming one of sixteen
  fixed reals (the code table), scaled by one real per block of 64 consecutive entries of the row-major flattened
  matrix — entry (o, k) lies in block o · 64 + k / 64. The layer's result at (b, s, o) is the inner product over k of
  the input row x[b, s, ·] with the decoded weight row w[o, ·], plus the bias at o. Every sum here is a finite sum of
  extended reals taken as written: no law beyond reading both programs at an index is needed to compare them, so
  finiteness of the inputs is never used.
-/
import Idealize.ShloMosaic.PureOps.Ideal
import Idealize.ShloMosaic.Lib.ValueIdx

noncomputable section

open scoped BigOperators

namespace Cert.Nf4

open Idealize.ShloMosaic Idealize.ShloMosaic.ValueIdx

/-- The sixteen words of the code table, by code; any other number reads the zero word. -/
def codeWord : Nat → BitVec 32
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0x00000000#32

/-- The real a code word names: the table's entry at the word's value. -/
def code (w : BitVec 32) : EReal := Ideal.ofBits .f32 (codeWord w.toNat)

/-- The block of 64 consecutive flattened entries that weight entry (o, k) lies in. -/
def blockOf (o k : Fin 4096) : Fin 262144 := ⟨o.val * 64 + k.val / 64, by have := o.isLt; have := k.isLt; omega⟩

/-- The decoded weight at (o, k): the code's real times its block's scale. -/
def weight (widx : IVec ⟨2, ![4096, 4096]⟩ 32) (am : FVec Ideal ⟨1, ![262144]⟩ .f32) (o k : Fin 4096) : EReal :=
  code (widx (ix2 o k)) * am (ix1 (blockOf o k))

/-- The layer's result at (b, s, o): the row of x against the decoded weight row, plus the bias. -/
def resultAt (x : FVec Ideal ⟨3, ![4, 2048, 4096]⟩ .f32) (widx : IVec ⟨2, ![4096, 4096]⟩ 32)
    (am : FVec Ideal ⟨1, ![262144]⟩ .f32) (bias : FVec Ideal ⟨1, ![4096]⟩ .f32) (b : Fin 4) (s : Fin 2048) (o : Fin 4096) : EReal :=
  (∑ k : Fin 4096, x (ix3 b s k) * weight widx am o k) + bias (ix1 o)

/-- The whole result array. -/
def result (x : FVec Ideal ⟨3, ![4, 2048, 4096]⟩ .f32) (widx : IVec ⟨2, ![4096, 4096]⟩ 32)
    (am : FVec Ideal ⟨1, ![262144]⟩ .f32) (bias : FVec Ideal ⟨1, ![4096]⟩ .f32) : FVec Ideal ⟨3, ![4, 2048, 4096]⟩ .f32 :=
  fun j => resultAt x widx am bias ⟨(j 0).val, (j 0).isLt⟩ ⟨(j 1).val, (j 1).isLt⟩ ⟨(j 2).val, (j 2).isLt⟩

theorem result_ix3 (x : FVec Ideal ⟨3, ![4, 2048, 4096]⟩ .f32) (widx : IVec ⟨2, ![4096, 4096]⟩ 32)
    (am : FVec Ideal ⟨1, ![262144]⟩ .f32) (bias : FVec Ideal ⟨1, ![4096]⟩ .f32) (b : Fin 4) (s : Fin 2048) (o : Fin 4096) :
    result x widx am bias (ix3 b s o) = resultAt x widx am bias b s o := rfl

/-- A code word below sixteen is a small non-negative word: read signed it is its value. -/
theorem toInt_of_lt {w : BitVec 32} (h : w.toNat < 16) : w.toInt = w.toNat := by
  rw [BitVec.toInt_eq_msb_cond, BitVec.msb_eq_false_iff_two_mul_lt.mpr (by omega)]
  simp

end Cert.Nf4

end
-- ==== Proof.PreRange.lean ====
import proofs.«405187_j9199819948153_1_alg».proof.Proof.Gen.Pre_finite_inputs
import Idealize.ShloMosaic.Lib.ReduceAll
import Idealize.ShloMosaic.Lib.StableHlo.Predicate
import Idealize.ShloMosaic.Lib.ValueIdx

noncomputable section

namespace Cert.Nf4.PreRange

open Idealize.ShloMosaic

/-- A 32-bit word that is at least 0 and below 16 as a signed number has unsigned value below 16: a word whose
    unsigned value is 2^31 or more reads as a negative signed number, which the first comparison excludes, and
    otherwise the signed and unsigned values agree, so the second comparison bounds the unsigned value. -/
theorem word_lt (w : BitVec 32) (h0 : IntOp.cmpi .sge w 0#32 = 1#1) (h16 : IntOp.cmpi .slt w 16#32 = 1#1) :
    w.toNat < 16 := by
  rw [IntOp.cmpi_sge] at h0
  rw [IntOp.cmpi_slt] at h16
  have e0 : (0#32 : BitVec 32).toInt = 0 := by decide
  have e16 : (16#32 : BitVec 32).toInt = 16 := by decide
  rw [e0] at h0
  rw [e16] at h16
  rw [BitVec.toInt_eq_toNat_cond] at h0 h16
  have := w.isLt
  split at h0 <;> omega

/-- The shape of a scalar has exactly one index. -/
instance : Subsingleton Cert.Pre_finite_inputs.S_.Idx := ⟨fun a b => funext fun d => d.elim0⟩

/-- Under the precondition every code is one of 0 … 15. -/
theorem code_lt {F : FTy → Type} [FloatOps F]
    (a0 : FVec F Cert.Pre_finite_inputs.S4x2048x4096 .f32) (a1 : IVec Cert.Pre_finite_inputs.S4096x4096 32)
    (a2 : FVec F Cert.Pre_finite_inputs.S262144 .f32) (a3 : FVec F Cert.Pre_finite_inputs.S4096 .f32)
    (h : Cert.Pre_finite_inputs.fn (F := F) a0 a1 a2 a3 = fun _ => 1#1) (i : Cert.Pre_finite_inputs.S4096x4096.Idx) :
    (a1 i).toNat < 16 := by
  -- the precondition read at its one index is a conjunction of two scalars; the second is the range conjunct
  have e := congrFun h ValueIdx.ix0
  dsimp only [Cert.Pre_finite_inputs.fn, Cert.Pre_finite_inputs.fn_part1] at e
  have e1 := (IntOp.andi_eq_one.1 e).2
  -- a conjunction over all entries that is 1 is 1 at every entry, in particular at i
  have e2 := Host.reduce_andi_all _ _ _ _ _ e1 i
  -- at i the entry is the conjunction of the two comparisons of the word with the constants 0 and 16
  have e3 := IntOp.andi_eq_one.1 e2
  exact word_lt (a1 i) e3.1 e3.2

end Cert.Nf4.PreRange

end
-- ==== Proof.KernelBlock.lean ====
import proofs.«405187_j9199819948153_1_alg».proof.Proof.Gen.KernelIdeal.Frame
import proofs.«405187_j9199819948153_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

theorem off2_zero : (![0, 0] : Fin 2 → Nat) = fun _ => 0 := funext fun a => by fin_cases a <;> rfl
theorem off1_zero : (![0] : Fin 1 → Nat) = fun _ => 0 := funext fun a => by fin_cases a <;> rfl

theorem out_open (x0 : Vec Ideal S512x4096 .f32) (x1 : Vec Ideal S256x4096 .i32) (x2 : Vec Ideal S256x64 .f32)
    (x3 : Vec Ideal S256 .f32) :
    Gen.out0_4 (F := Ideal) x0 x1 x2 x3
      = (k0_pay1 (F := Ideal)) x3 ((k0_pay5 (F := Ideal)) ((k0_pay2 (F := Ideal)) x0))
          ((k0_pay6 (F := Ideal)) x1 ((k0_pay3 (F := Ideal)) x2) ((k0_pay4 (F := Ideal)) x1) 7#32) := by
  unfold Gen.out0_4
  rw [View.canon_unit_zero off2_zero]
  simp only [View.ld_unit_zero (S := S512x4096) off2_zero, View.ld_unit_zero (S := S256x4096) off2_zero,
    View.ld_unit_zero (S := S256x64) off2_zero, View.ld_unit_zero (S := S256) off1_zero]

/-- The first seven steps of the decoding chain at one word: codes 0 … 6 over the zero word. -/
def chainLo (w : BitVec 32) : EReal :=
  Scalar.select (IntOp.cmpi .eq w 6#32) (Ideal.ofBits .f32 0xBDBA7871#32)
  (Scalar.select (IntOp.cmpi .eq w 5#32) (Ideal.ofBits .f32 0xBE3D353F#32)
  (Scalar.select (IntOp.cmpi .eq w 4#32) (Ideal.ofBits .f32 0xBE91A24D#32)
  (Scalar.select (IntOp.cmpi .eq w 3#32) (Ideal.ofBits .f32 0xBECA32A0#32)
  (Scalar.select (IntOp.cmpi .eq w 2#32) (Ideal.ofBits .f32 0xBF066B30#32)
  (Scalar.select (IntOp.cmpi .eq w 1#32) (Ideal.ofBits .f32 0xBF3239B1#32)
  (Scalar.select (IntOp.cmpi .eq w 0#32) (Ideal.ofBits .f32 0xBF800000#32)
  (Ideal.ofBits .f32 0x00000000#32)))))))

/-- The last nine steps, codes `c` (seven in the program) and 8 … 15, over what the first seven left. -/
def chainHi (w c : BitVec 32) (lo : EReal) : EReal :=
  Scalar.select (IntOp.cmpi .eq w 15#32) (Ideal.ofBits .f32 0x3F800000#32)
  (Scalar.select (IntOp.cmpi .eq w 14#32) (Ideal.ofBits .f32 0x3F3913B3#32)
  (Scalar.select (IntOp.cmpi .eq w 13#32) (Ideal.ofBits .f32 0x3F1007AB#32)
  (Scalar.select (IntOp.cmpi .eq w 12#32) (Ideal.ofBits .f32 0x3EE1A4B8#32)
  (Scalar.select (IntOp.cmpi .eq w 11#32) (Ideal.ofBits .f32 0x3EAD033A#32)
  (Scalar.select (IntOp.cmpi .eq w 10#32) (Ideal.ofBits .f32 0x3E7C04DD#32)
  (Scalar.select (IntOp.cmpi .eq w 9#32) (Ideal.ofBits .f32 0x3E24CAE3#32)
  (Scalar.select (IntOp.cmpi .eq w 8#32) (Ideal.ofBits .f32 0x3DA2FAFF#32)
  (Scalar.select (IntOp.cmpi .eq w c) (Ideal.ofBits .f32 0x00000000#32) lo))))))))

/-- On a word below sixteen the whole chain picks the table's entry. -/
theorem chain_eq_code (w : BitVec 32) (h : w.toNat < 16) : chainHi w 7#32 (chainLo w) = Cert.Nf4.code w := by
  obtain ⟨n, hn, rfl⟩ : ∃ n, n < 16 ∧ w = BitVec.ofNat 32 n := ⟨w.toNat, h, by simp⟩
  interval_cases n <;> rfl

theorem pay4_apply (x1 : Vec Ideal S256x4096 .i32) (j : S256x4096.Idx) :
    (k0_pay4 (F := Ideal)) x1 j = chainLo (x1 j) := rfl

/-- The scale block re-laid to the code block's shape: column k reads the scale of its stretch of 64. -/
theorem scale_relaid_apply (v4 : FVec Ideal S256x64 .f32) (q : Fin 256) (k : Fin 4096) :
    shapeCast S256x4096
        (broadcastTo S256x64x64
          (shapeCast S256x64x1 (shapeCast S256x64x1 v4 Facts₀.shapeCasts_S256x64_S256x64x1) Facts₀.shapeCasts_S256x64x1_S256x64x1)
          Facts₀.broadcasts_S256x64x1_S256x64x64)
        Facts₀.shapeCasts_S256x64x64_S256x4096 (ix2 q k)
      = v4 (ix2 q (⟨k.val / 64, by have := k.isLt; omega⟩ : Fin 64)) := by
  have hk := k.isLt
  refine (shapeCast_apply _ Facts₀.shapeCasts_S256x64x64_S256x4096 (ix2 q k)
    (ix3 q (⟨k.val / 64, by omega⟩ : Fin 64) (⟨k.val % 64, by omega⟩ : Fin 64)) ?_).trans ?_
  · rw [Shape.rowMajor_val_three, Shape.rowMajor_val_two]
    show (q.val * 64 + k.val / 64) * 64 + k.val % 64 = q.val * 4096 + k.val
    omega
  refine (broadcastTo_apply _ Facts₀.broadcasts_S256x64x1_S256x64x64 _
    (ix3 q (⟨k.val / 64, by omega⟩ : Fin 64) (0 : Fin 1)) ?_).trans ?_
  · intro a
    match a with
    | ⟨0, _⟩ => rfl
    | ⟨1, _⟩ => rfl
    | ⟨2, _⟩ => rfl
  rw [shapeCast_self]
  refine (shapeCast_apply v4 Facts₀.shapeCasts_S256x64_S256x64x1 _ (ix2 q (⟨k.val / 64, by omega⟩ : Fin 64)) ?_).trans rfl
  rw [Shape.rowMajor_val_three, Shape.rowMajor_val_two]
  show q.val * 64 + k.val / 64 = (q.val * 64 + k.val / 64) * 1 + 0
  omega

/-! The operand indices of the product at output index i and contraction index q, axis by axis. -/

theorem lhs_axis0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl

theorem lhs_axis1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q

theorem rhs_axis0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl

theorem rhs_axis1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The product into the zero block at (p, q): row p of the left operand against row q of the right. -/
theorem matmul_apply_rows (l : FVec Ideal S512x4096 .bf16) (r : FVec Ideal S256x4096 .bf16) (p : Fin 512) (q : Fin 256) :
    matmul dot_S512x4096_S256x4096_S512x256_1_1_0_0_n_n none l r (constant (F := Ideal) S512x256 .f32 0x00000000#32) (ix2 p q)
      = ∑ k : Fin 4096, l (ix2 p k) * r (ix2 q k) := by
  simp only [matmul]
  rw [Ideal.matmul_constant_zero_apply, ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p q) ((ValueIdx.contrEquiv1 dot_S512x4096_S256x4096_S512x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S256x4096_S512x256_1_1_0_0_n_n.rhsIdx (ix2 p q) ((ValueIdx.contrEquiv1 dot_S512x4096_S256x4096_S512x256_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The bias block laid along the rows: entry (p, q) reads the bias at q. -/
theorem bias_relaid_apply (v5 : Vec Ideal S256 .f32) (p : Fin 512) (q : Fin 256) :
    broadcastTo S512x256 (shapeCast S1x256 v5 Facts₀.shapeCasts_S256_S1x256) Facts₀.broadcasts_S1x256_S512x256 (ix2 p q)
      = v5 (ix1 q) := by
  refine (broadcastTo_apply _ Facts₀.broadcasts_S1x256_S512x256 (ix2 p q) (ix2 (0 : Fin 1) q) ?_).trans ?_
  · intro a
    match a with
    | ⟨0, _⟩ => rfl
    | ⟨1, _⟩ => rfl
  refine (shapeCast_apply v5 Facts₀.shapeCasts_S256_S1x256 (ix2 (0 : Fin 1) q) (ix1 q) ?_).trans rfl
  rw [Shape.rowMajor_val_one, Shape.rowMajor_val_two]
  show q.val = 0 * 256 + q.val
  omega

/-- The last payload at (p, q): the product of the two operand blocks' rows plus the bias. -/
theorem pay1_apply (v5 : Vec Ideal S256 .f32) (v76 : FVec Ideal S512x4096 .bf16) (v77 : FVec Ideal S256x4096 .bf16)
    (p : Fin 512) (q : Fin 256) :
    (k0_pay1 (F := Ideal)) v5 v76 v77 (ix2 p q) = (∑ k : Fin 4096, v76 (ix2 p k) * v77 (ix2 q k)) + v5 (ix1 q) := by
  show matmul dot_S512x4096_S256x4096_S512x256_1_1_0_0_n_n none v76 v77 (constant (F := Ideal) S512x256 .f32 0x00000000#32) (ix2 p q)
      + broadcastTo S512x256 (shapeCast S1x256 v5 Facts₀.shapeCasts_S256_S1x256) Facts₀.broadcasts_S1x256_S512x256 (ix2 p q) = _
  rw [matmul_apply_rows, bias_relaid_apply]

/-- The decoded block at (q, k): the rest of the chain at the code there, times the scale of k's stretch. -/
theorem pay6_apply (x1 : Vec Ideal S256x4096 .i32) (v4 : FVec Ideal S256x64 .f32) (v34 : FVec Ideal S256x4096 .f32)
    (c : BitVec 32) (q : Fin 256) (k : Fin 4096) :
    (k0_pay6 (F := Ideal)) x1 v4 v34 c (ix2 q k)
      = chainHi (x1 (ix2 q k)) c (v34 (ix2 q k)) * v4 (ix2 q (⟨k.val / 64, by have := k.isLt; omega⟩ : Fin 64)) := by
  show chainHi (x1 (ix2 q k)) c (v34 (ix2 q k))
      * shapeCast S256x4096
        (broadcastTo S256x64x64
          (shapeCast S256x64x1 (shapeCast S256x64x1 v4 Facts₀.shapeCasts_S256x64_S256x64x1) Facts₀.shapeCasts_S256x64x1_S256x64x1)
          Facts₀.broadcasts_S256x64x1_S256x64x64)
        Facts₀.shapeCasts_S256x64x64_S256x4096 (ix2 q k) = _
  rw [scale_relaid_apply]

/-- The left operand's payloads change nothing: a cast to the same shape and a narrowing of the format. -/
theorem pay52_apply (x0 : Vec Ideal S512x4096 .f32) (i : S512x4096.Idx) :
    (k0_pay5 (F := Ideal)) ((k0_pay2 (F := Ideal)) x0) i = x0 i := by
  show shapeCast S512x4096 x0 Facts₀.shapeCasts_S512x4096_S512x4096 i = x0 i
  rw [shapeCast_self]

/-- Nor does the scale block's: a cast to the same shape. -/
theorem pay3_eq (x2 : Vec Ideal S256x64 .f32) : (k0_pay3 (F := Ideal)) x2 = x2 := by
  show shapeCast S256x64 x2 Facts₀.shapeCasts_S256x64_S256x64 = x2
  rw [shapeCast_self]

/-- One output block of the kernel at (p, q), from the four input blocks: the row p of the x block against the
    decoded row q of the code block (each code's real times the scale of its 64-entry stretch), plus the bias at q. -/
theorem out_block_apply (x0 : Vec Ideal S512x4096 .f32) (x1 : Vec Ideal S256x4096 .i32) (x2 : Vec Ideal S256x64 .f32)
    (x3 : Vec Ideal S256 .f32) (hw : ∀ i, (x1 i : BitVec 32).toNat < 16) (p : Fin 512) (q : Fin 256) :
    Gen.out0_4 (F := Ideal) x0 x1 x2 x3 (ix2 p q)
      = (∑ k : Fin 4096, x0 (ix2 p k) * (Cert.Nf4.code (x1 (ix2 q k))
          * x2 (ix2 q (⟨k.val / 64, by have := k.isLt; omega⟩ : Fin 64)))) + x3 (ix1 q) := by
  rw [out_open, pay1_apply]
  refine congrArg (· + x3 (ix1 q)) (Finset.sum_congr rfl fun k _ => ?_)
  rw [pay52_apply, pay6_apply, pay4_apply, chain_eq_code _ (hw _), pay3_eq]

end Cert.KernelIdeal.Block

end
-- ==== Proof.GridFacts.lean ====
/-
  The kernel's index maps over its 16 × 16 grid, decided once: point (i, j) reads block row i of the flattened
  input, block row j of the codes, of the scales and of the bias, and writes block (i, j) of the output; every
  block of the output is some point's.
-/
import proofs.«405187_j9199819948153_1_alg».proof.Proof.Gen.KernelIdeal.Frame

noncomputable section

namespace Cert.KernelIdeal.GridFacts

open Cert.KernelIdeal Cert.KernelIdeal.Gen Idealize.ShloMosaic

/-- The input windows' block rows are the output's block row or block column, their block columns zero, and the
    output's block indices stay below 16. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 1) = win0_4.index t (1 : Fin 2)
    ∧ win0_4.index t (0 : Fin 2) ≤ 15 ∧ win0_4.index t (1 : Fin 2) ≤ 15 :=
  (by decide +kernel : ∀ t : Fin grid0.N, _)

/-- Every block of the output is some point's. -/
theorem idx_onto : ∀ (q0 : Fin 16) (q1 : Fin 16), ∃ t : Fin cfg0.N, win0_4.index t = ![q0.val, q1.val] :=
  (by decide +kernel : ∀ (q0 : Fin 16) (q1 : Fin 16), ∃ t : Fin grid0.N, win0_4.index t = ![q0.val, q1.val])

end Cert.KernelIdeal.GridFacts

end
-- ==== Proof.KernelArray.lean ====
/-
  The kernel's result array, from its blocks.

  The grid has 16 × 16 points (i, j). Point (i, j) reads rows i·512 … of the flattened input (8192 × 4096), rows
  j·256 … of the code matrix, of the 4096 × 64 scale matrix and of the bias, and writes the 512 × 256 block (i, j) of
  the 8192 × 4096 output. Row r of the flattened input is x[r / 2048, r % 2048, ·]; entry (o, b) of the scale matrix
  is the flat scale o·64 + b. So the output at (r, o) is the layer's result at (r / 2048, r % 2048, o), and the last
  host operation views the output at the result's own shape.
-/
import proofs.«405187_j9199819948153_1_alg».proof.Proof.Gen.KernelIdeal.Frame
import proofs.«405187_j9199819948153_1_alg».proof.Proof.Spec
import proofs.«405187_j9199819948153_1_alg».proof.Proof.KernelBlock
import proofs.«405187_j9199819948153_1_alg».proof.Proof.GridFacts
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.ArrayValue

open Cert.KernelIdeal Cert.KernelIdeal.Gen Cert.KernelIdeal.GridFacts Idealize.ShloMosaic Idealize.ShloMosaic.TcCoe Idealize.SL.Sem
open Idealize.ShloMosaic.ValueIdx Idealize.ShloMosaic.Pipeline Idealize.ShloMosaic.StableHlo

variable (m : (ℓ : Loc nD τ sig) → Buf (Elt Ideal) ℓ) (ρ : Dev nD → PrngReg)

/-! ## The output as one function of the arrays the region finds -/

/-- Entry (r, o) of the output: row r of the flattened input against the decoded weight row o — each code's real times
    the scale at (o, k / 64) of the scale matrix —, plus the bias at o. -/
def flatResult (xf : FVec Ideal S8192x4096 .f32) (wi : IVec S4096x4096 32) (am2 : FVec Ideal S4096x64 .f32)
    (bi : FVec Ideal S4096 .f32) (r : Fin 8192) (o : Fin 4096) : EReal :=
  (∑ k : Fin 4096, xf (ix2 r k) * (Cert.Nf4.code (wi (ix2 o k))
      * am2 (ix2 o (⟨k.val / 64, by have := k.isLt; omega⟩ : Fin 64)))) + bi (ix1 o)

/-- The same as an array. -/
def flatArray (xf : FVec Ideal S8192x4096 .f32) (wi : IVec S4096x4096 32) (am2 : FVec Ideal S4096x64 .f32)
    (bi : FVec Ideal S4096 .f32) : FVec Ideal S8192x4096 .f32 :=
  fun i => flatResult xf wi am2 bi ⟨(i 0).val, idx2_lt0 i⟩ ⟨(i 1).val, idx2_lt1 i⟩

/-! ## The blocks a point reads and the block it writes, as places in the arrays -/

/-- The x block of point t at (p, k) is the flattened input at row (block row)·512 + p. -/
theorem xblk_apply (c : Dev nD) (t : Fin cfg0.N) (p : Fin 512) (k : Fin 4096) :
    iblk m c 0 t (ix2 p k) = V m c main_v0 (ix2 (⟨win0_4.index t (0 : Fin 2) * 512 + p.val, by
      have := (idx_facts t).2.2.2.2.2.2.2.1; have := p.isLt; omega⟩ : Fin 8192) k) := by
  obtain ⟨e0, e1, -⟩ := idx_facts t
  have h : ((cfg0.win 0).blk t).view.emb (ix2 p k) = ix2 (⟨win0_4.index t (0 : Fin 2) * 512 + p.val, by
      have := (idx_facts t).2.2.2.2.2.2.2.1; have := p.isLt; omega⟩ : Fin 8192) k := by
    funext a; apply Fin.ext
    match a with
    | ⟨0, _⟩ => show win0_0.index t (0 : Fin 2) * 512 + 1 * p.val = win0_4.index t (0 : Fin 2) * 512 + p.val; omega
    | ⟨1, _⟩ => show win0_0.index t (1 : Fin 2) * 4096 + 1 * k.val = k.val; omega
  show V m c main_v0 (((cfg0.win 0).blk t).view.emb (ix2 p k)) = _
  rw [h]

/-- The code block of point t at (q, k) is the code matrix at row (block column)·256 + q. -/
theorem wblk_apply (c : Dev nD) (t : Fin cfg0.N) (q : Fin 256) (k : Fin 4096) :
    iblk m c 1 t (ix2 q k) = V m c main_arg1 (ix2 (⟨win0_4.index t (1 : Fin 2) * 256 + q.val, by
      have := (idx_facts t).2.2.2.2.2.2.2.2; have := q.isLt; omega⟩ : Fin 4096) k) := by
  obtain ⟨-, -, e0, e1, -⟩ := idx_facts t
  have h : ((cfg0.win 1).blk t).view.emb (ix2 q k) = ix2 (⟨win0_4.index t (1 : Fin 2) * 256 + q.val, by
      have := (idx_facts t).2.2.2.2.2.2.2.2; have := q.isLt; omega⟩ : Fin 4096) k := by
    funext a; apply Fin.ext
    match a with
    | ⟨0, _⟩ => show win0_1.index t (0 : Fin 2) * 256 + 1 * q.val = win0_4.index t (1 : Fin 2) * 256 + q.val; omega
    | ⟨1, _⟩ => show win0_1.index t (1 : Fin 2) * 4096 + 1 * k.val = k.val; omega
  show V m c main_arg1 (((cfg0.win 1).blk t).view.emb (ix2 q k)) = _
  rw [h]

/-- The scale block of point t at (q, b) is the scale matrix at row (block column)·256 + q. -/
theorem ablk_apply (c : Dev nD) (t : Fin cfg0.N) (q : Fin 256) (b : Fin 64) :
    iblk m c 2 t (ix2 q b) = V m c main_v1 (ix2 (⟨win0_4.index t (1 : Fin 2) * 256 + q.val, by
      have := (idx_facts t).2.2.2.2.2.2.2.2; have := q.isLt; omega⟩ : Fin 4096) b) := by
  obtain ⟨-, -, -, -, e0, e1, -⟩ := idx_facts t
  have h : ((cfg0.win 2).blk t).view.emb (ix2 q b) = ix2 (⟨win0_4.index t (1 : Fin 2) * 256 + q.val, by
      have := (idx_facts t).2.2.2.2.2.2.2.2; have := q.isLt; omega⟩ : Fin 4096) b := by
    funext a; apply Fin.ext
    match a with
    | ⟨0, _⟩ => show win0_2.index t (0 : Fin 2) * 256 + 1 * q.val = win0_4.index t (1 : Fin 2) * 256 + q.val; omega
    | ⟨1, _⟩ => show win0_2.index t (1 : Fin 2) * 64 + 1 * b.val = b.val; omega
  show V m c main_v1 (((cfg0.win 2).blk t).view.emb (ix2 q b)) = _
  rw [h]

/-- The bias block of point t at q is the bias at (block column)·256 + q. -/
theorem bblk_apply (c : Dev nD) (t : Fin cfg0.N) (q : Fin 256) :
    iblk m c 3 t (ix1 q) = V m c main_arg3 (ix1 (⟨win0_4.index t (1 : Fin 2) * 256 + q.val, by
      have := (idx_facts t).2.2.2.2.2.2.2.2; have := q.isLt; omega⟩ : Fin 4096)) := by
  obtain ⟨-, -, -, -, -, -, e0, -⟩ := idx_facts t
  have h : ((cfg0.win 3).blk t).view.emb (ix1 q) = ix1 (⟨win0_4.index t (1 : Fin 2) * 256 + q.val, by
      have := (idx_facts t).2.2.2.2.2.2.2.2; have := q.isLt; omega⟩ : Fin 4096) := by
    funext a; apply Fin.ext
    match a with
    | ⟨0, _⟩ => show win0_3.index t (0 : Fin 1) * 256 + 1 * q.val = win0_4.index t (1 : Fin 2) * 256 + q.val; omega
  show V m c main_arg3 (((cfg0.win 3).blk t).view.emb (ix1 q)) = _
  rw [h]

/-- Place (p, q) of the output block of point t is the output at ((block row)·512 + p, (block column)·256 + q). -/
theorem oblk_emb (t : Fin cfg0.N) (p : Fin 512) (q : Fin 256) :
    ((cfg0.win 4).blk t).view.emb (ix2 p q) = ix2 (⟨win0_4.index t (0 : Fin 2) * 512 + p.val, by
        have := (idx_facts t).2.2.2.2.2.2.2.1; have := p.isLt; omega⟩ : Fin 8192)
      (⟨win0_4.index t (1 : Fin 2) * 256 + q.val, by
        have := (idx_facts t).2.2.2.2.2.2.2.2; have := q.isLt; omega⟩ : Fin 4096) := by
  funext a; apply Fin.ext
  match a with
  | ⟨0, _⟩ => show win0_4.index t (0 : Fin 2) * 512 + 1 * p.val = win0_4.index t (0 : Fin 2) * 512 + p.val; omega
  | ⟨1, _⟩ => show win0_4.index t (1 : Fin 2) * 256 + 1 * q.val = win0_4.index t (1 : Fin 2) * 256 + q.val; omega

/-! ## What a point writes back, the cover, and the array after the run -/

/-- Point t writes back block t of the output function of the arrays the region finds. -/
theorem flushed_eq (c : Dev nD) (t : Fin cfg0.N) (hw : ∀ i, (V m c main_arg1 i : BitVec 32).toNat < 16) :
    (dats m 0 c).flushed 4 t = ((cfg0.win 4).blk t).view.read (Elt Ideal)
      (flatArray (V m c main_v0) (V m c main_arg1) (V m c main_v1) (V m c main_arg3)) := by
  show (cfg0.win 4).cut (grid0.coords t) ((dats m 0 c).after 4 t) = _
  rw [after0_4]
  funext y
  obtain ⟨p, q, rfl⟩ : ∃ (p : Fin 512) (q : Fin 256), y = ix2 p q := ⟨y 0, y 1, eq_ix2 y⟩
  show out0_4 (iblk m c 0 t) (iblk m c 1 t) (iblk m c 2 t) (iblk m c 3 t) (ix2 p q)
    = flatArray (V m c main_v0) (V m c main_arg1) (V m c main_v1) (V m c main_arg3) (((cfg0.win 4).blk t).view.emb (ix2 p q))
  rw [oblk_emb]
  refine (Cert.KernelIdeal.Block.out_block_apply (iblk m c 0 t) (iblk m c 1 t) (iblk m c 2 t) (iblk m c 3 t) ?_ p q).trans ?_
  · intro i
    obtain ⟨q', k', rfl⟩ : ∃ (q' : Fin 256) (k' : Fin 4096), i = ix2 q' k' := ⟨i 0, i 1, eq_ix2 i⟩
    rw [wblk_apply]
    exact hw _
  · show _ = flatResult _ _ _ _ _ _
    unfold flatResult
    refine congrArg₂ (· + ·) (Finset.sum_congr rfl fun k _ => ?_) (bblk_apply m c t q)
    rw [xblk_apply, wblk_apply, ablk_apply]

/-- An index of the output is in point t's block iff each coordinate is in the block's range on its axis. -/
theorem mem_blk (t : Fin cfg0.N) (i : S8192x4096.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v2).slice (win0_4.rect t)).set ↔ _
  rw [View.set_slice_whole, Rect.mem_set_unit]
  exact Iff.rfl

/-- Every index of the output is in some point's block: the one with block row r / 512 and block column o / 256. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The output array after the run. -/
theorem final (c : Dev nD) (hw : ∀ i, (V m c main_arg1 i : BitVec 32).toNat < 16) :
    (dats m 0 c).arrAt 4 cfg0.N = flatArray (V m c main_v0) (V m c main_arg1) (V m c main_v1) (V m c main_arg3) :=
  (dats m 0 c).arrAt_eq_of_cover 4 _ (fun t _ => flushed_eq m c t hw) cover

/-! ## The arrays the region finds, and the last host operation -/

/-- The flattened input the region finds is the input at the flat shape. -/
theorem V_v0 (c : Dev nD) : V m c main_v0
    = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- The scale matrix the region finds is the flat scales at the matrix shape. -/
theorem V_v1 (c : Dev nD) : V m c main_v1
    = shapeCast S4096x64 (m ((c : Thread nD τ).loc main_arg2)) Facts₀.shapeCasts_S262144_S4096x64 := by
  show StableHlo.after hostOps0 (fun b => m (c, b)) (Proc.devRef .tc main_v1) = _
  after_results
  rfl

/-- Row b·2048 + s of the flattened input is x[b, s, ·]. -/
theorem xflat_apply (c : Dev nD) (b : Fin 4) (s : Fin 2048) (k : Fin 4096) :
    V m c main_v0 (ix2 (⟨b.val * 2048 + s.val, by have := b.isLt; have := s.isLt; omega⟩ : Fin 8192) k)
      = m ((c : Thread nD τ).loc main_arg0) (ix3 b s k) := by
  rw [V_v0]
  refine shapeCast_apply _ _ _ (ix3 b s k) ?_
  rw [Shape.rowMajor_val_three, Shape.rowMajor_val_two]
  rfl

/-- Entry (o, b) of the scale matrix is the flat scale o·64 + b. -/
theorem scale_apply (c : Dev nD) (o : Fin 4096) (b : Fin 64) :
    V m c main_v1 (ix2 o b)
      = m ((c : Thread nD τ).loc main_arg2) (ix1 (⟨o.val * 64 + b.val, by have := o.isLt; have := b.isLt; omega⟩ : Fin 262144)) := by
  rw [V_v1]
  refine shapeCast_apply _ _ _ (ix1 (⟨o.val * 64 + b.val, by have := o.isLt; have := b.isLt; omega⟩ : Fin 262144)) ?_
  rw [Shape.rowMajor_val_one, Shape.rowMajor_val_two]
  rfl

/-- The output at (b·2048 + s, o) is the layer's result at (b, s, o). -/
theorem flat_eq_result (c : Dev nD) (b : Fin 4) (s : Fin 2048) (o : Fin 4096) :
    flatArray (V m c main_v0) (V m c main_arg1) (V m c main_v1) (V m c main_arg3)
        (ix2 (⟨b.val * 2048 + s.val, by have := b.isLt; have := s.isLt; omega⟩ : Fin 8192) o)
      = Cert.Nf4.resultAt (m ((c : Thread nD τ).loc main_arg0)) (m ((c : Thread nD τ).loc main_arg1))
          (m ((c : Thread nD τ).loc main_arg2)) (m ((c : Thread nD τ).loc main_arg3)) b s o := by
  show flatResult _ _ _ _ _ _ = _
  unfold flatResult Cert.Nf4.resultAt Cert.Nf4.weight
  rw [V_main_arg1, V_main_arg3]
  refine congrArg (· + _) (Finset.sum_congr rfl fun k _ => ?_)
  rw [xflat_apply, scale_apply]
  rfl

/-- After the last host operation the result buffer holds the layer's result of the arguments. -/
theorem tail_v3 (c : Dev nD) (hw : ∀ i, (V m c main_arg1 i : BitVec 32).toNat < 16) :
    Pipeline.afterTail₀ cfgs (dats m) 0 (V0 m) [hostOps1] c main_v3
      = Cert.Nf4.result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  have e : Pipeline.withArrays spec0 c (V0 m c) (fun w => (dats m 0 c).arrAt w cfg0.N) (Proc.devRef .tc main_v2)
      = (dats m 0 c).arrAt 4 cfg0.N := Pipeline.withArrays_arr spec0 launch0.win.arr_inj c _ _ 4
  rw [e, final m c hw]
  funext j
  obtain ⟨b, s, o, rfl⟩ : ∃ (b : Fin 4) (s : Fin 2048) (o : Fin 4096), j = ix3 b s o := ⟨j 0, j 1, j 2, eq_ix3 j⟩
  rw [Cert.Nf4.result_ix3]
  refine (shapeCast_apply _ _ (ix3 b s o)
    (ix2 (⟨b.val * 2048 + s.val, by have := b.isLt; have := s.isLt; omega⟩ : Fin 8192) o) ?_).trans (flat_eq_result m c b s o)
  rw [Shape.rowMajor_val_three, Shape.rowMajor_val_two]
  rfl

/-! ## The run, read -/

/-- The kernel program's run with its result named: with every code in 0 … 15, the result buffer ends at the
    layer's result of the arguments, and the arguments end unchanged. -/
theorem run (hw : ∀ (c : Dev nD) (i : S4096x4096.Idx), (m ((c.tc : Thread nD τ).loc main_arg1) i : BitVec 32).toNat < 16) :
    θ_run (defs (F := Ideal)) (onTc (τ := τ) (main (F := Ideal))) ⟨m, fun _ => 0, ρ⟩ fun r => ∀ c : Dev nD,
      r.2.mem ((c.tc : Thread nD τ).loc main_v3) = Cert.Nf4.result (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans
        (tail_v3 m c (fun i => by rw [V_main_arg1]; exact hw c i)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.ArrayValue

end
-- ==== Proof.RefRun.lean ====
/-
  The reference program's @main as a LIST of its 20 host operations, and its run read back: every weakly fair
  execution terminates with the result buffer at the operations' composed term of the four arguments' launch
  contents, and the arguments unchanged. The composed term is written out once, in the post of `run`: the code table
  gathered at the (wrapped) codes, times the per-block scale, reshaped to the weight matrix, contracted with the
  input, plus the broadcast bias.
-/
import proofs.«405187_j9199819948153_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 20 operations, in order. -/
abbrev ops : List (HloOp τ sig (Elt F)) :=
  [ nullary main_cst (fun i => FloatOps.ofBits .f32 (lit0 (S16.rowMajor i))),
    reshape main_arg1 main_v0 rfl shapeCasts_S4096x4096_S262144x64,
    nullary main_c (constantI S_ 32 0#32),
    unary main_c main_v1 (broadcastInDim S262144x64 ![] bcast_S_S262144x64 : (⟨S_, .i32⟩ : BufTy).Contents (Elt F) → (⟨S262144x64, .i32⟩ : BufTy).Contents (Elt F)),
    binary main_v0 main_v1 main_v2 (cmpi .slt : (⟨S262144x64, .i32⟩ : BufTy).Contents (Elt F) → (⟨S262144x64, .i32⟩ : BufTy).Contents (Elt F) → (⟨S262144x64, .i1⟩ : BufTy).Contents (Elt F)),
    nullary main_c_0 (constantI S_ 32 16#32),
    unary main_c_0 main_v3 (broadcastInDim S262144x64 ![] bcast_S_S262144x64 : (⟨S_, .i32⟩ : BufTy).Contents (Elt F) → (⟨S262144x64, .i32⟩ : BufTy).Contents (Elt F)),
    binary main_v0 main_v3 main_v4 (addi : (⟨S262144x64, .i32⟩ : BufTy).Contents (Elt F) → (⟨S262144x64, .i32⟩ : BufTy).Contents (Elt F) → (⟨S262144x64, .i32⟩ : BufTy).Contents (Elt F)),
    ternary main_v2 main_v4 main_v0 main_v5 (select : (⟨S262144x64, .i1⟩ : BufTy).Contents (Elt F) → (⟨S262144x64, .i32⟩ : BufTy).Contents (Elt F) → (⟨S262144x64, .i32⟩ : BufTy).Contents (Elt F) → (⟨S262144x64, .i32⟩ : BufTy).Contents (Elt F)),
    unary main_v5 main_v6 (broadcastInDim S262144x64x1 ![0, 1] bcast_S262144x64_S262144x64x1_0_1 : (⟨S262144x64, .i32⟩ : BufTy).Contents (Elt F) → (⟨S262144x64x1, .i32⟩ : BufTy).Contents (Elt F)),
    binary main_cst main_v6 main_v7 ((fun x i => Host.gather gather_S16_S262144x64x1_S262144x64_n_0_n_n_0_2_1 x i) : (⟨S16, .f32⟩ : BufTy).Contents (Elt F) → (⟨S262144x64x1, .i32⟩ : BufTy).Contents (Elt F) → (⟨S262144x64, .f32⟩ : BufTy).Contents (Elt F)),
    unary main_arg2 main_v8 (broadcastInDim S262144x1 ![0] bcast_S262144_S262144x1_0 : (⟨S262144, .f32⟩ : BufTy).Contents (Elt F) → (⟨S262144x1, .f32⟩ : BufTy).Contents (Elt F)),
    unary main_v8 main_v9 (broadcastInDim S262144x64 ![0, 1] bcast_S262144x1_S262144x64_0_1 : (⟨S262144x1, .f32⟩ : BufTy).Contents (Elt F) → (⟨S262144x64, .f32⟩ : BufTy).Contents (Elt F)),
    binary main_v7 main_v9 main_v10 (mulf : (⟨S262144x64, .f32⟩ : BufTy).Contents (Elt F) → (⟨S262144x64, .f32⟩ : BufTy).Contents (Elt F) → (⟨S262144x64, .f32⟩ : BufTy).Contents (Elt F)),
    reshape main_v10 main_v11 rfl shapeCasts_S262144x64_S4096x4096,
    binary main_arg0 main_v11 main_v12 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v13 (broadcastInDim S1x1x4096 ![2] bcast_S4096_S1x1x4096_2 : (⟨S4096, .f32⟩ : BufTy).Contents (Elt F) → (⟨S1x1x4096, .f32⟩ : BufTy).Contents (Elt F)),
    unary main_v13 main_v14 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v12 main_v14 main_v15 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., nullary_bufs_sub .., unary_bufs_sub .., binary_bufs_sub .., nullary_bufs_sub ..,
   unary_bufs_sub .., binary_bufs_sub .., ternary_bufs_sub .., unary_bufs_sub .., binary_bufs_sub .., unary_bufs_sub ..,
   unary_bufs_sub .., binary_bufs_sub .., reshape_bufs_sub .., binary_bufs_sub .., unary_bufs_sub .., unary_bufs_sub ..,
   binary_bufs_sub ..⟩

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) =
        addf
          (Host.dotGeneral dot_S4x2048x4096_S4096x4096_S4x2048x4096_2_1_01_0_n_n none (m ((c.tc : Thread nD τ).loc main_arg0))
            (shapeCast S4096x4096
              (mulf
                (Host.gather gather_S16_S262144x64x1_S262144x64_n_0_n_n_0_2_1 (fun i => FloatOps.ofBits .f32 (lit0 (S16.rowMajor i)))
                  (broadcastInDim S262144x64x1 ![0, 1] bcast_S262144x64_S262144x64x1_0_1
                    (select
                      (cmpi .slt (shapeCast S262144x64 (m ((c.tc : Thread nD τ).loc main_arg1)) shapeCasts_S4096x4096_S262144x64)
                        (broadcastInDim S262144x64 ![] bcast_S_S262144x64 (constantI S_ 32 0#32)))
                      (addi (shapeCast S262144x64 (m ((c.tc : Thread nD τ).loc main_arg1)) shapeCasts_S4096x4096_S262144x64)
                        (broadcastInDim S262144x64 ![] bcast_S_S262144x64 (constantI S_ 32 16#32)))
                      (shapeCast S262144x64 (m ((c.tc : Thread nD τ).loc main_arg1)) shapeCasts_S4096x4096_S262144x64))))
                (broadcastInDim S262144x64 ![0, 1] bcast_S262144x1_S262144x64_0_1
                  (broadcastInDim S262144x1 ![0] bcast_S262144_S262144x1_0 (m ((c.tc : Thread nD τ).loc main_arg2)))))
              shapeCasts_S262144x64_S4096x4096))
          (broadcastInDim S4x2048x4096 ![0, 1, 2] bcast_S1x1x4096_S4x2048x4096_0_1_2
            (broadcastInDim S1x1x4096 ![2] bcast_S4096_S1x1x4096_2 (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.HandRun

end
-- ==== Proof.RefValue.lean ====
/-
  The reference program's result, read at an index.

  At the ideal values the composed term of the reference's twenty host operations is the layer's result of its four
  arguments whenever every code is in 0 … 15: the wrap of negative codes leaves such a code alone, the gather of the
  sixteen-entry table at a code reads the code's real, the reshape of the 4096 × 4096 codes to 262144 rows of 64 puts
  entry (o, k) at row o · 64 + k / 64, column k mod 64 — the block whose scale multiplies it —, and the contraction
  over the input's last axis is the sum over k of the row of x against the decoded weight row.
-/
import proofs.«405187_j9199819948153_1_alg».proof.Proof.Gen.ReferenceIdeal
import proofs.«405187_j9199819948153_1_alg».proof.Proof.Spec
import proofs.«405187_j9199819948153_1_alg».proof.Proof.RefRun
import Idealize.ShloMosaic.Lib.StableHlo.Run
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-! ## The composed term, in named stages -/

/-- The codes as 262144 rows of 64. -/
def codes (widx : IVec S4096x4096 32) : IVec S262144x64 32 :=
  shapeCast S262144x64 widx shapeCasts_S4096x4096_S262144x64

/-- The codes after the wrap of negative indices: a negative code has 16 added. -/
def wrapped (widx : IVec S4096x4096 32) : IVec S262144x64 32 :=
  select (cmpi .slt (codes widx) (broadcastInDim S262144x64 ![] bcast_S_S262144x64 (constantI S_ 32 0#32)))
    (addi (codes widx) (broadcastInDim S262144x64 ![] bcast_S_S262144x64 (constantI S_ 32 16#32)))
    (codes widx)

/-- The sixteen-entry code table as the program's constant buffer holds it. -/
def table : FVec Ideal S16 .f32 := fun i => FloatOps.ofBits .f32 (lit0 (S16.rowMajor i))

/-- The decoded weights as 262144 blocks of 64: the table at the wrapped code, times the block's scale. -/
def decoded (widx : IVec S4096x4096 32) (am : FVec Ideal S262144 .f32) : FVec Ideal S262144x64 .f32 :=
  mulf
    (Host.gather gather_S16_S262144x64x1_S262144x64_n_0_n_n_0_2_1 table
      (broadcastInDim S262144x64x1 ![0, 1] bcast_S262144x64_S262144x64x1_0_1 (wrapped widx)))
    (broadcastInDim S262144x64 ![0, 1] bcast_S262144x1_S262144x64_0_1
      (broadcastInDim S262144x1 ![0] bcast_S262144_S262144x1_0 am))

/-- The decoded weight matrix. -/
def wmat (widx : IVec S4096x4096 32) (am : FVec Ideal S262144 .f32) : FVec Ideal S4096x4096 .f32 :=
  shapeCast S4096x4096 (decoded widx am) shapeCasts_S262144x64_S4096x4096

/-- The reference's result as the composed term of its operations. -/
def refTerm (x : FVec Ideal S4x2048x4096 .f32) (widx : IVec S4096x4096 32) (am : FVec Ideal S262144 .f32)
    (bias : FVec Ideal S4096 .f32) : FVec Ideal S4x2048x4096 .f32 :=
  addf
    (Host.dotGeneral dot_S4x2048x4096_S4096x4096_S4x2048x4096_2_1_01_0_n_n none x (wmat widx am))
    (broadcastInDim S4x2048x4096 ![0, 1, 2] bcast_S1x1x4096_S4x2048x4096_0_1_2
      (broadcastInDim S1x1x4096 ![2] bcast_S4096_S1x1x4096_2 bias))

/-! ## Words -/

/-- A code below sixteen is not negative, so the wrap leaves it alone. -/
theorem wrap_word (w : BitVec 32) (h : w.toNat < 16) :
    Scalar.select (IntOp.cmpi .slt w 0#32) (IntOp.addi w 16#32) w = w := by
  have hslt : w.slt 0#32 = false := by
    rw [BitVec.slt, Cert.Nf4.toInt_of_lt h]
    simp
  have hc : IntOp.cmpi .slt w 0#32 = 0#1 := by
    show BitVec.ofBool (w.slt 0#32) = 0#1
    rw [hslt]; rfl
  rw [hc]
  exact select_zero _ _

/-- The table's word at a code below sixteen is the code word. -/
theorem lit0_eq (n : Nat) (h : n < 16) : lit0 ⟨n, h⟩ = Cert.Nf4.codeWord n := by
  interval_cases n <;> rfl

/-- The table at a code below sixteen reads the code's real. -/
theorem table_apply (w : BitVec 32) (h : w.toNat < 16) : table (ix1 ⟨w.toNat, h⟩) = Cert.Nf4.code w := by
  unfold table Cert.Nf4.code
  have e : S16.rowMajor (ix1 (⟨w.toNat, h⟩ : Fin 16)) = ⟨w.toNat, h⟩ :=
    Fin.ext (Shape.rowMajor_val_one (d := ![16]) (ix1 (⟨w.toNat, h⟩ : Fin 16)))
  rw [e]
  exact congrArg (Ideal.ofBits .f32) (lit0_eq w.toNat h)

/-! ## The stages read at an index -/

/-- Every entry of the reshaped codes is an entry of the codes. -/
theorem codes_lt (widx : IVec S4096x4096 32) (hw : ∀ i, (widx i).toNat < 16) (j : S262144x64.Idx) :
    (codes widx j).toNat < 16 :=
  hw (Shape.reshapeEquiv shapeCasts_S4096x4096_S262144x64 j)

/-- Entry (o, k) of the codes sits in row o · 64 + k / 64, column k mod 64 of the reshaped codes. -/
theorem codes_apply (widx : IVec S4096x4096 32) (o k : Fin 4096) :
    codes widx (ix2 (Cert.Nf4.blockOf o k) (⟨k.val % 64, Nat.mod_lt _ (by decide)⟩ : Fin 64)) = widx (ix2 o k) := by
  unfold codes
  refine shapeCast_apply widx shapeCasts_S4096x4096_S262144x64 _ (ix2 o k) ?_
  rw [Shape.rowMajor_val_two, Shape.rowMajor_val_two]
  show o.val * 4096 + k.val = (o.val * 64 + k.val / 64) * 64 + k.val % 64
  omega

/-- With every code below sixteen the wrap changes nothing. -/
theorem wrapped_apply (widx : IVec S4096x4096 32) (hw : ∀ i, (widx i).toNat < 16) (j : S262144x64.Idx) :
    wrapped widx j = codes widx j :=
  wrap_word (codes widx j) (codes_lt widx hw j)

/-- The gather of the table at codes below sixteen reads each code's real. -/
theorem gather_apply (idx : IVec S262144x64 32) (hidx : ∀ j, (idx j).toNat < 16) (p : Fin 262144) (q : Fin 64) :
    Host.gather gather_S16_S262144x64x1_S262144x64_n_0_n_n_0_2_1 table
      (broadcastInDim S262144x64x1 ![0, 1] bcast_S262144x64_S262144x64x1_0_1 idx) (ix2 p q)
      = Cert.Nf4.code (idx (ix2 p q)) := by
  have hB : broadcastInDim S262144x64x1 ![0, 1] bcast_S262144x64_S262144x64x1_0_1 idx (takeIdx (ix2 p q)) = idx (ix2 p q) :=
    broadcastInDim_apply _ _ idx _ (ix2 p q) fun a => by
      match a with
      | ⟨0, _⟩ => rfl
      | ⟨1, _⟩ => rfl
  have hlt := hidx (ix2 p q)
  refine (gather_take_apply (N := 16) (R := 262144) (C := 64) (by decide)
    gather_S16_S262144x64x1_S262144x64_n_0_n_n_0_2_1_wf table _ (ix2 p q)).trans ?_
  refine (congrArg table (congrArg ix1 (Fin.ext ?_))).trans (table_apply (idx (ix2 p q)) hlt)
  show min (broadcastInDim S262144x64x1 ![0, 1] bcast_S262144x64_S262144x64x1_0_1 idx (takeIdx (ix2 p q))).toInt.toNat (16 - 1)
    = (idx (ix2 p q)).toNat
  rw [hB, Cert.Nf4.toInt_of_lt hlt, Int.toNat_natCast]
  omega

/-- The scale broadcast along the rows of 64 reads the row's scale. -/
theorem scale_apply (am : FVec Ideal S262144 .f32) (p : Fin 262144) (q : Fin 64) :
    broadcastInDim S262144x64 ![0, 1] bcast_S262144x1_S262144x64_0_1
      (broadcastInDim S262144x1 ![0] bcast_S262144_S262144x1_0 am) (ix2 p q) = am (ix1 p) := by
  refine (broadcastInDim_apply _ _ _ (ix2 p q) (ix2 p (0 : Fin 1)) fun a => ?_).trans ?_
  · match a with
    | ⟨0, _⟩ => rfl
    | ⟨1, _⟩ => rfl
  · refine broadcastInDim_apply _ _ am (ix2 p (0 : Fin 1)) (ix1 p) fun a => ?_
    match a with
    | ⟨0, _⟩ => rfl

/-- The bias broadcast over the batch and the sequence reads the bias of the output column. -/
theorem bias_apply (bias : FVec Ideal S4096 .f32) (b : Fin 4) (s : Fin 2048) (o : Fin 4096) :
    broadcastInDim S4x2048x4096 ![0, 1, 2] bcast_S1x1x4096_S4x2048x4096_0_1_2
      (broadcastInDim S1x1x4096 ![2] bcast_S4096_S1x1x4096_2 bias) (ix3 b s o) = bias (ix1 o) := by
  refine (broadcastInDim_apply _ _ _ (ix3 b s o) (ix3 (0 : Fin 1) (0 : Fin 1) o) fun a => ?_).trans ?_
  · match a with
    | ⟨0, _⟩ => rfl
    | ⟨1, _⟩ => rfl
    | ⟨2, _⟩ => rfl
  · refine broadcastInDim_apply _ _ bias (ix3 (0 : Fin 1) (0 : Fin 1) o) (ix1 o) fun a => ?_
    match a with
    | ⟨0, _⟩ => rfl

/-- A decoded block entry: the code's real times the block's scale. -/
theorem decoded_apply (widx : IVec S4096x4096 32) (am : FVec Ideal S262144 .f32) (hw : ∀ i, (widx i).toNat < 16)
    (p : Fin 262144) (q : Fin 64) :
    decoded widx am (ix2 p q) = Cert.Nf4.code (codes widx (ix2 p q)) * am (ix1 p) := by
  have hwr : wrapped widx = codes widx := funext (wrapped_apply widx hw)
  unfold decoded
  rw [mulf_apply, hwr, gather_apply (codes widx) (codes_lt widx hw) p q, scale_apply]

/-- Entry (o, k) of the weight matrix is the decoded entry of its block at column k mod 64. -/
theorem wmat_apply (widx : IVec S4096x4096 32) (am : FVec Ideal S262144 .f32) (o k : Fin 4096) :
    wmat widx am (ix2 o k)
      = decoded widx am (ix2 (Cert.Nf4.blockOf o k) (⟨k.val % 64, Nat.mod_lt _ (by decide)⟩ : Fin 64)) := by
  unfold wmat
  refine shapeCast_apply (decoded widx am) shapeCasts_S262144x64_S4096x4096 (ix2 o k) _ ?_
  rw [Shape.rowMajor_val_two, Shape.rowMajor_val_two]
  show (o.val * 64 + k.val / 64) * 64 + k.val % 64 = o.val * 4096 + k.val
  omega

/-! ## The contraction read at an index

One lemma per operand axis, stated for any contraction index: a free axis of the left operand reads the result
index's coordinate at its place among the result's axes (the left operand's free axes first, then the right's), the
contracted axis of either operand reads the contraction index's one coordinate. -/

theorem lhs_0 (i : S4x2048x4096.Idx) (q : dot_S4x2048x4096_S4096x4096_S4x2048x4096_2_1_01_0_n_n.contr.Idx) :
    (dot_S4x2048x4096_S4096x4096_S4x2048x4096_2_1_01_0_n_n.lhsIdx i q 0).val = (i 0).val := by
  unfold DotDims.lhsIdx
  rw [dif_neg (show ¬(0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  rfl

theorem lhs_1 (i : S4x2048x4096.Idx) (q : dot_S4x2048x4096_S4096x4096_S4x2048x4096_2_1_01_0_n_n.contr.Idx) :
    (dot_S4x2048x4096_S4096x4096_S4x2048x4096_2_1_01_0_n_n.lhsIdx i q 1).val = (i 1).val := by
  unfold DotDims.lhsIdx
  rw [dif_neg (show ¬(1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  rfl

theorem lhs_2 (i : S4x2048x4096.Idx) (q : dot_S4x2048x4096_S4096x4096_S4x2048x4096_2_1_01_0_n_n.contr.Idx) :
    (dot_S4x2048x4096_S4096x4096_S4x2048x4096_2_1_01_0_n_n.lhsIdx i q 2).val = (q ⟨0, by decide⟩).val :=
  dot_S4x2048x4096_S4096x4096_S4x2048x4096_2_1_01_0_n_n.lhsIdx_val_of_single rfl i q

theorem rhs_0 (i : S4x2048x4096.Idx) (q : dot_S4x2048x4096_S4096x4096_S4x2048x4096_2_1_01_0_n_n.contr.Idx) :
    (dot_S4x2048x4096_S4096x4096_S4x2048x4096_2_1_01_0_n_n.rhsIdx i q 0).val = (i 2).val := by
  unfold DotDims.rhsIdx
  rw [dif_neg (show ¬(0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  rfl

theorem rhs_1 (i : S4x2048x4096.Idx) (q : dot_S4x2048x4096_S4096x4096_S4x2048x4096_2_1_01_0_n_n.contr.Idx) :
    (dot_S4x2048x4096_S4096x4096_S4x2048x4096_2_1_01_0_n_n.rhsIdx i q 1).val = (q ⟨0, by decide⟩).val :=
  dot_S4x2048x4096_S4096x4096_S4x2048x4096_2_1_01_0_n_n.rhsIdx_val_of_single rfl i q

/-- The contraction at (b, s, o): the sum over k of the input at (b, s, k) times the weight at (o, k). -/
theorem dot_apply (x : FVec Ideal S4x2048x4096 .f32) (W : FVec Ideal S4096x4096 .f32) (b : Fin 4) (s : Fin 2048) (o : Fin 4096) :
    Host.dotGeneral dot_S4x2048x4096_S4096x4096_S4x2048x4096_2_1_01_0_n_n none x W (ix3 b s o) = ∑ k : Fin 4096, x (ix3 b s k) * W (ix2 o k) := by
  simp only [Host.dotGeneral]
  rw [Ideal.dotGeneral_apply, ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have el : dot_S4x2048x4096_S4096x4096_S4x2048x4096_2_1_01_0_n_n.lhsIdx (ix3 b s o) ((contrEquiv1 dot_S4x2048x4096_S4096x4096_S4x2048x4096_2_1_01_0_n_n 4096 rfl rfl).symm k) = ix3 b s k :=
    funext fun a => Fin.ext (by
      match a with
      | ⟨0, _⟩ => exact lhs_0 _ _
      | ⟨1, _⟩ => exact lhs_1 _ _
      | ⟨2, _⟩ => exact (lhs_2 _ _).trans hk)
  have er : dot_S4x2048x4096_S4096x4096_S4x2048x4096_2_1_01_0_n_n.rhsIdx (ix3 b s o) ((contrEquiv1 dot_S4x2048x4096_S4096x4096_S4x2048x4096_2_1_01_0_n_n 4096 rfl rfl).symm k) = ix2 o k :=
    funext fun a => Fin.ext (by
      match a with
      | ⟨0, _⟩ => exact rhs_0 _ _
      | ⟨1, _⟩ => exact (rhs_1 _ _).trans hk)
  rw [el, er]

/-! ## The composed term is the layer's result -/

theorem refTerm_eq (x : FVec Ideal S4x2048x4096 .f32) (widx : IVec S4096x4096 32) (am : FVec Ideal S262144 .f32)
    (bias : FVec Ideal S4096 .f32) (hw : ∀ i, (widx i).toNat < 16) :
    refTerm x widx am bias = Cert.Nf4.result x widx am bias := by
  funext j
  obtain ⟨b, s, o, rfl⟩ : ∃ (b : Fin 4) (s : Fin 2048) (o : Fin 4096), j = ix3 b s o := ⟨j 0, j 1, j 2, eq_ix3 j⟩
  rw [Cert.Nf4.result_ix3]
  unfold refTerm Cert.Nf4.resultAt
  rw [addf_apply, dot_apply, bias_apply]
  refine congrArg (· + bias (ix1 o)) (Finset.sum_congr rfl fun k _ => ?_)
  rw [wmat_apply, decoded_apply widx am hw, codes_apply]
  rfl

/-! ## The run -/

/-- The reference's run: with every code in 0 … 15 its result array is the layer's result of its arguments. -/
theorem run_result (m : (ℓ : Loc nD τ sig) → Buf (Elt Ideal) ℓ) (ρ : Dev nD → PrngReg)
    (hw : ∀ (c : Dev nD) (i : S4096x4096.Idx), (m ((c.tc : Thread nD τ).loc main_arg1) i : BitVec 32).toNat < 16) :
    θ_run (defs (F := Ideal)) (onTc (τ := τ) (main (F := Ideal))) ⟨m, fun _ => 0, ρ⟩ fun r => ∀ c : Dev nD,
      r.2.mem ((c.tc : Thread nD τ).loc main_v15) = Cert.Nf4.result (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans
        (refTerm_eq (m ((c.tc : Thread nD τ).loc main_arg0)) (m ((c.tc : Thread nD τ).loc main_arg1))
          (m ((c.tc : Thread nD τ).loc main_arg2)) (m ((c.tc : Thread nD τ).loc main_arg3)) (hw c)),
      (h c).2⟩)
    (HandRun.run m ρ)

end Cert.ReferenceIdeal.RefValue

end
-- ==== Proof.lean ====
/-
  A linear layer whose 4096 × 4096 weight is stored as four-bit codes: entry (o, k) of the weight is the real that the
  code at (o, k) names in a table of sixteen, times one scale per block of 64 consecutive entries of the flattened
  weight; the layer maps x[b, s, ·] to its inner products with the weight's rows, plus a bias.

  The kernel decodes a 256-row tile of the weight with sixteen selects (code = c ? table[c] : previous, over zero),
  multiplies by the tile's scales laid out along the row, and forms a 512 × 256 tile of the output by one matrix
  product over the whole row; the reference looks the codes up in the table with a gather, scales, and takes one
  contraction over the whole weight. Read at an index over the extended reals both are

      result[b, s, o] = ∑ₖ x[b, s, k] · (table[code[o, k]] · scale[o·64 + k / 64]) + bias[o],

  the same sum of the same products in the same order, so no law of arithmetic is needed and the inputs' finiteness is
  never used. What IS needed is that every code is one of 0 … 15: outside that range the select chain leaves zero
  while the table look-up clamps to an end of the table (or wraps a negative code), so the statement carries that
  range as a precondition, and both value proofs use it.

  The pieces: Spec (the result as one function), PreRange (the range read off the printed precondition), KernelBlock
  (one output tile at an index), GridFacts and KernelArray (the tiles cover the output; the flattening of x and of the
  scales before the call and the un-flattening after it), RefRun and RefValue (the reference's operations run and
  read at an index).
-/
import proofs.«405187_j9199819948153_1_alg».proof.Defs
import proofs.«405187_j9199819948153_1_alg».proof.Proof.Gen.Kernel
import proofs.«405187_j9199819948153_1_alg».proof.Proof.Gen.Kernel.Frame
import proofs.«405187_j9199819948153_1_alg».proof.Proof.Gen.KernelIdeal
import proofs.«405187_j9199819948153_1_alg».proof.Proof.Gen.KernelIdeal.Frame
import proofs.«405187_j9199819948153_1_alg».proof.Proof.Gen.ReferenceIdeal
import proofs.«405187_j9199819948153_1_alg».proof.Proof.Gen.Pre_finite_inputs
import proofs.«405187_j9199819948153_1_alg».proof.Proof.Spec
import proofs.«405187_j9199819948153_1_alg».proof.Proof.PreRange
import proofs.«405187_j9199819948153_1_alg».proof.Proof.KernelArray
import proofs.«405187_j9199819948153_1_alg».proof.Proof.RefValue

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. Under the precondition every code
    is in range, which the run's reading of the result asks for. -/
theorem frame_referenceIdeal : Cert.frame_ReferenceIdeal := fun m ρ hpre =>
  (θ_run Cert.ReferenceIdeal.defs _ _).mono (fun _ h c => (h c).2)
    (Cert.ReferenceIdeal.RefValue.run_result m ρ fun c i => Cert.Nf4.PreRange.code_lt _ _ _ _ (hpre c) i)

/-- The idealization rewrote nothing. -/
theorem preserves : Cert.preserves_Kernel_KernelIdeal := trivial

/-- From memories agreeing on the arguments both programs end with the layer's result of those arguments. -/
theorem algebraic : Cert.algebraic_KernelIdeal_ReferenceIdeal := by
  intro m ρ m' ρ' hpre hagree
  have hcode : ∀ (c : Dev Cert.KernelIdeal.nD) (i : Cert.KernelIdeal.S4096x4096.Idx),
      (m ((c.tc : Thread Cert.KernelIdeal.nD Cert.KernelIdeal.τ).loc Cert.KernelIdeal.main_arg1) i : BitVec 32).toNat < 16 :=
    fun c i => Cert.Nf4.PreRange.code_lt _ _ _ _ (hpre c) i
  refine ⟨_, Cert.KernelIdeal.ArrayValue.run m ρ hcode, ?_⟩
  refine (θ_run Cert.ReferenceIdeal.defs _ _).mono (fun _ h c => ⟨(h c).1.trans ?_, (h c).2⟩)
    (Cert.ReferenceIdeal.RefValue.run_result m' ρ' fun c i => by rw [(hagree c).2.1]; exact hcode c i)
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
